-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x224x224 : Shape := ⟨3, ![128, 224, 224]⟩
abbrev S32x224x224 : Shape := ⟨3, ![32, 224, 224]⟩
abbrev S_ : Shape := ⟨0, ![]⟩

class Facts : Prop where
  bcast_S_S128x224x224 : S_.BroadcastsInDim S128x224x224 (![] : Fin 0 → Fin S128x224x224.rank)
  reducesTo_S128x224x224_S_d0_1_2 : S128x224x224.ReducesTo [0, 1, 2] S_
  h_S_ : 0 < S_.numel
  bcast_S_S32x224x224 : S_.BroadcastsInDim S32x224x224 (![] : Fin 0 → Fin S32x224x224.rank)
  reducesTo_S32x224x224_S_d0_1_2 : S32x224x224.ReducesTo [0, 1, 2] S_

variable [Facts]

def fn {F : FTy → Type} [FloatOps F] (main_arg0 : FVec F S128x224x224 .f32) (main_arg1 : FVec F S32x224x224 .f32) : IVec S_ 1 :=
  let main_v0 : FVec F S128x224x224 .f32 := Host.absf main_arg0
  let main_cst : FVec F S_ .f32 := constant S_ .f32 0x7F800000#32
  let main_v1 : FVec F S128x224x224 .f32 := broadcastInDim S128x224x224 ![] bcast_S_S128x224x224 main_cst
  let main_v2 : IVec S128x224x224 1 := cmpf .olt main_v0 main_v1
  let main_c : IVec S_ 1 := constantI S_ 1 1#1
  let main_v3 : IVec S_ 1 := (fun x v => Host.reduce IntOp.andi x v reducesTo_S128x224x224_S_d0_1_2 h_S_) main_v2 main_c
  let main_v4 : FVec F S32x224x224 .f32 := Host.absf main_arg1
  let main_cst_0 : FVec F S_ .f32 := constant S_ .f32 0x7F800000#32
  let main_v5 : FVec F S32x224x224 .f32 := broadcastInDim S32x224x224 ![] bcast_S_S32x224x224 main_cst_0
  let main_v6 : IVec S32x224x224 1 := cmpf .olt main_v4 main_v5
  let main_c_1 : IVec S_ 1 := constantI S_ 1 1#1
  let main_v7 : IVec S_ 1 := (fun x v => Host.reduce IntOp.andi x v reducesTo_S32x224x224_S_d0_1_2 h_S_) main_v6 main_c_1
  let main_v8 : IVec S_ 1 := andi main_v3 main_v7
  main_v8
-- ==== Kernel.lean ====
abbrev S128x224x224 : Shape := ⟨3, ![128, 224, 224]⟩
abbrev S32x224x224 : Shape := ⟨3, ![32, 224, 224]⟩
abbrev S128x32x224x224 : Shape := ⟨4, ![128, 32, 224, 224]⟩
abbrev S1x224x224 : Shape := ⟨3, ![1, 224, 224]⟩
abbrev S1x32x224x224 : Shape := ⟨4, ![1, 32, 224, 224]⟩
abbrev S224x224 : Shape := ⟨2, ![224, 224]⟩

abbrev nBuf : Space → Nat
  | .hbm => 3
  | .vmem => 5
  | .smem => 0
  | _ => 0

abbrev bufTy : (tb : Table) → Fin (tcTables nBuf tb) → BufTy
  | .hbm, ⟨0, _⟩ => ⟨S128x224x224, .f32⟩
  | .hbm, ⟨1, _⟩ => ⟨S32x224x224, .f32⟩
  | .hbm, ⟨2, _⟩ => ⟨S128x32x224x224, .f32⟩
  | .local _ .vmem, ⟨0, _⟩ => ⟨S1x224x224, .f32⟩
  | .local _ .vmem, ⟨1, _⟩ => ⟨S1x224x224, .f32⟩
  | .local _ .vmem, ⟨2, _⟩ => ⟨S32x224x224, .f32⟩
  | .local _ .vmem, ⟨3, _⟩ => ⟨S1x32x224x224, .f32⟩
  | .local _ .vmem, ⟨4, _⟩ => ⟨S1x32x224x224, .f32⟩
  | _, _ => ⟨S128x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x224x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x224x224_S1x224x224_0_0_0 : ∀ a, (![0, 0, 0] : Fin 3 → Nat) a + S1x224x224.size a ≤ S1x224x224.size a
  h_S1x224x224 : 0 < S1x224x224.numel
  shapeCasts_S1x224x224_S224x224 : S1x224x224.ShapeCasts S224x224
  inb_S32x224x224_S32x224x224_0_0_0 : ∀ a, (![0, 0, 0] : Fin 3 → Nat) a + S32x224x224.size a ≤ S32x224x224.size a
  h_S32x224x224 : 0 < S32x224x224.numel
  shapeCasts_S224x224_S1x224x224 : S224x224.ShapeCasts S1x224x224
  broadcasts_S1x224x224_S32x224x224 : S1x224x224.Broadcasts S32x224x224
  inb_S1x32x224x224_S1x32x224x224_0_0_0_0 : ∀ a, (![0, 0, 0, 0] : Fin 4 → Nat) a + S1x32x224x224.size a ≤ S1x32x224x224.size a
  h_S1x32x224x224 : 0 < S1x32x224x224.numel
  shapeCasts_S1x32x224x224_S32x224x224 : S1x32x224x224.ShapeCasts S32x224x224
  shapeCasts_S32x224x224_S1x32x224x224 : S32x224x224.ShapeCasts S1x32x224x224
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x224x224.size a ≤ S128x224x224.size a
  hwx0_0 : ∀ i : grid0.Coords, EltTy.bits .f32 = 32 ∨ (Rect.block (s := S128x224x224) S1x224x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x224x224.size a ≤ S32x224x224.size a
  hwx0_1 : ∀ i : grid0.Coords, EltTy.bits .f32 = 32 ∨ (Rect.block (s := S32x224x224) S32x224x224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x224x224.size a ≤ S128x32x224x224.size a
  hwx0_2 : ∀ i : grid0.Coords, EltTy.bits .f32 = 32 ∨ (Rect.block (s := S128x32x224x224) S1x32x224x224.size (cc0_transform_2 i) (hinb0_2 i)).WholeWords (EltTy.packing .f32)

variable [Facts₀]

abbrev win0_0 : Pipeline.Window sig grid0 :=
  Pipeline.Window.ofSpec (Memref.whole main_arg0) S1x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x224x224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x224x224.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x224x224 : Shape := ⟨3, ![128, 224, 224]⟩
abbrev S32x224x224 : Shape := ⟨3, ![32, 224, 224]⟩
abbrev S128x1x224x224 : Shape := ⟨4, ![128, 1, 224, 224]⟩
abbrev S1x32x224x224 : Shape := ⟨4, ![1, 32, 224, 224]⟩
abbrev S128x32x224x224 : Shape := ⟨4, ![128, 32, 224, 224]⟩

abbrev nBuf : Space → Nat
  | .hbm => 7
  | .vmem => 0
  | .smem => 0
  | _ => 0

abbrev bufTy : (tb : Table) → Fin (tcTables nBuf tb) → BufTy
  | .hbm, ⟨0, _⟩ => ⟨S128x224x224, .f32⟩
  | .hbm, ⟨1, _⟩ => ⟨S32x224x224, .f32⟩
  | .hbm, ⟨2, _⟩ => ⟨S128x1x224x224, .f32⟩
  | .hbm, ⟨3, _⟩ => ⟨S1x32x224x224, .f32⟩
  | .hbm, ⟨4, _⟩ => ⟨S128x32x224x224, .f32⟩
  | .hbm, ⟨5, _⟩ => ⟨S128x32x224x224, .f32⟩
  | .hbm, ⟨6, _⟩ => ⟨S128x32x224x224, .f32⟩
  | _, _ => ⟨S128x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S128x224x224_S128x1x224x224_0_2_3 : S128x224x224.BroadcastsInDim S128x1x224x224 (![0, 2, 3] : Fin 3 → Fin S128x1x224x224.rank)
  bcast_S32x224x224_S1x32x224x224_1_2_3 : S32x224x224.BroadcastsInDim S1x32x224x224 (![1, 2, 3] : Fin 3 → Fin S1x32x224x224.rank)
  bcast_S128x1x224x224_S128x32x224x224_0_1_2_3 : S128x1x224x224.BroadcastsInDim S128x32x224x224 (![0, 1, 2, 3] : Fin 4 → Fin S128x32x224x224.rank)
  bcast_S1x32x224x224_S128x32x224x224_0_1_2_3 : S1x32x224x224.BroadcastsInDim S128x32x224x224 (![0, 1, 2, 3] : Fin 4 → Fin S128x32x224x224.rank)

variable [Facts₀]

class Facts : Prop extends Facts₀ where

variable [Facts]
-- ==== Proof.KernelProduct.lean ====
/-
  What the idealized kernel leaves in its result array, entry by entry.

  The grid has one point per image `b` of `x` (128 of them). At point `b` the body loads image `b`
  (a 1 × 224 × 224 block), loads the whole filter bank `kernels` (32 × 224 × 224, the same block at every
  point), repeats the image along the channel axis, multiplies filter by image entry by entry, and
  writes the 1 × 32 × 224 × 224 product back as block `b` of the result. So the entry of the result at
  `(b, c, h, w)` is `kernels[c, h, w] · x[b, h, w]`: the function `outer` below. Block `b` is exactly the
  slab of the result with first coordinate `b`, the 128 slabs tile the result, and so after the run the
  whole result array is `outer` of the two argument arrays as launched.
-/
import proofs.«102451_j19670950216065_1_alg».proof.Proof.Gen.KernelIdeal.Value

noncomputable section

namespace Cert.KernelIdeal.Product

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The function -/

/-- The image entry `(b, h, w)` that the result entry `(b, c, h, w)` reads. -/
abbrev imgIdx (i : S128x32x224x224.Idx) : S128x224x224.Idx := fun a => match a with
  | ⟨0, _⟩ => ⟨(i 0).val, (i 0).isLt⟩
  | ⟨1, _⟩ => ⟨(i 2).val, (i 2).isLt⟩
  | ⟨2, _⟩ => ⟨(i 3).val, (i 3).isLt⟩

/-- The filter entry `(c, h, w)` that the result entry `(b, c, h, w)` reads. -/
abbrev filtIdx (i : S128x32x224x224.Idx) : S32x224x224.Idx := fun a => match a with
  | ⟨0, _⟩ => ⟨(i 1).val, (i 1).isLt⟩
  | ⟨1, _⟩ => ⟨(i 2).val, (i 2).isLt⟩
  | ⟨2, _⟩ => ⟨(i 3).val, (i 3).isLt⟩

/-- Every image against every filter: the entry at `(b, c, h, w)` is `k[c, h, w] · x[b, h, w]`, the filter
    entry on the left as the body multiplies. -/
abbrev outer (x : S128x224x224.Idx → Elt F .f32) (k : S32x224x224.Idx → Elt F .f32) : S128x32x224x224.Idx → Elt F .f32 :=
  fun i => FloatOps.mulf (k (filtIdx i)) (x (imgIdx i))

/-! ## One grid point -/

theorem off3 : (![0, 0, 0] : Fin 3 → Nat) = fun _ => 0 := funext fun a => by fin_cases a <;> rfl

/-- The block the body leaves, at a block index `y = (0, c, h, w)`: the filter block at `(c, h, w)` times the image
    block at `(0, h, w)`. The two loads read their whole buffers, and the product, re-laid with a leading unit
    axis, is the one piece stored. -/
theorem out_apply (x0 : Vec F S1x224x224 .f32) (x1 : Vec F S32x224x224 .f32) (y : S1x32x224x224.Idx) :
    out0_2 x0 x1 y = FloatOps.mulf (x1 (ix2_0 y)) (x0 (ix2_1 y)) := by
  unfold out0_2
  rw [View.ld_unit_zero (S := S1x224x224) off3, View.ld_unit_zero (S := S32x224x224) off3]
  exact canon2_eq x1 x0 y

/-- The three windows' block indices at a grid point, decided over the 128 points: the image window and the result
    window move together along the first axis, at the point's own number; nothing else moves. -/
theorem idx_facts : ∀ t : Fin cfg0.N,
    win0_0.index t (0 : Fin 3) = win0_2.index t (0 : Fin 4)
    ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 4) = t.val
    ∧ win0_2.index t (1 : Fin 4) = 0 ∧ win0_2.index t (2 : Fin 4) = 0 ∧ win0_2.index t (3 : Fin 4) = 0 :=
  (by decide +kernel : ∀ t : Fin grid0.N, _)

/-- WHAT POINT `t` WRITES BACK is block `t` of `outer` of the argument arrays as the region finds them: under the result
    block's index `j` the filter block is read at the array index `filtIdx` gives and the image block at the one
    `imgIdx` gives (a block's element sits at block index × block size + its coordinate in the block, and the result
    block's first coordinate is `0`). -/
theorem flushed_eq (c : Dev nD) (t : Fin cfg0.N) :
    (dats m 0 c).flushed 2 t = ((cfg0.win 2).blk t).view.read (Elt F) (outer (V m c main_arg0) (V m c main_arg1)) := by
  rw [flushed2]
  obtain ⟨e0, e1, e2, e3, e4, e5, e6, e7, e8, e9⟩ := idx_facts t
  funext j
  show out0_2 (iblk m c 0 t) (iblk m c 1 t) j = _
  refine (out_apply (iblk m c 0 t) (iblk m c 1 t) j).trans ?_
  show FloatOps.mulf (V m c main_arg1 (((cfg0.win 1).blk t).view.emb (ix2_0 j))) (V m c main_arg0 (((cfg0.win 0).blk t).view.emb (ix2_1 j)))
    = FloatOps.mulf (V m c main_arg1 (filtIdx (((cfg0.win 2).blk t).view.emb j))) (V m c main_arg0 (imgIdx (((cfg0.win 2).blk t).view.emb j)))
  have hj0 : (j 0).val < 1 := (j 0).isLt
  have h1 : ((cfg0.win 1).blk t).view.emb (ix2_0 j) = filtIdx (((cfg0.win 2).blk t).view.emb j) := by
    funext a; apply Fin.ext
    match a with
    | ⟨0, _⟩ => show win0_1.index t (0 : Fin 3) * 32 + 1 * (j 1).val = win0_2.index t (1 : Fin 4) * 32 + 1 * (j 1).val; omega
    | ⟨1, _⟩ => show win0_1.index t (1 : Fin 3) * 224 + 1 * (j 2).val = win0_2.index t (2 : Fin 4) * 224 + 1 * (j 2).val; omega
    | ⟨2, _⟩ => show win0_1.index t (2 : Fin 3) * 224 + 1 * (j 3).val = win0_2.index t (3 : Fin 4) * 224 + 1 * (j 3).val; omega
  have h0 : ((cfg0.win 0).blk t).view.emb (ix2_1 j) = imgIdx (((cfg0.win 2).blk t).view.emb j) := by
    funext a; apply Fin.ext
    match a with
    | ⟨0, _⟩ => show win0_0.index t (0 : Fin 3) * 1 + 1 * 0 = win0_2.index t (0 : Fin 4) * 1 + 1 * (j 0).val; omega
    | ⟨1, _⟩ => show win0_0.index t (1 : Fin 3) * 224 + 1 * (j 2).val = win0_2.index t (2 : Fin 4) * 224 + 1 * (j 2).val; omega
    | ⟨2, _⟩ => show win0_0.index t (2 : Fin 3) * 224 + 1 * (j 3).val = win0_2.index t (3 : Fin 4) * 224 + 1 * (j 3).val; omega
  rw [h1, h0]

/-! ## The blocks tile the result -/

/-- An index of the result is in point `t`'s block iff each coordinate is in the block's range on its axis. -/
theorem mem_blk (t : Fin cfg0.N) (i : S128x32x224x224.Idx) :
    i ∈ ((cfg0.win 2).blk t).view.set ↔ ∀ a : Fin 4, win0_2.index t a * S1x32x224x224.size a ≤ (i a).val ∧ (i a).val < win0_2.index t a * S1x32x224x224.size a + S1x32x224x224.size a := by
  show i ∈ ((View.whole main_v0).slice (win0_2.rect t)).set ↔ _
  rw [View.set_slice_whole, Rect.mem_set_unit]
  exact Iff.rfl

/-- Every index `(b, c, h, w)` of the result lies in the block of the point numbered `b`, which writes back. -/
theorem cover (i : S128x32x224x224.Idx) :
    ∃ t : Fin cfg0.N, (cfg0.win 2).flush t = true ∧ i ∈ ((cfg0.win 2).blk t).view.set := by
  have hi0 : (i 0).val < 128 := (i 0).isLt
  have hi1 : (i 1).val < 32 := (i 1).isLt
  have hi2 : (i 2).val < 224 := (i 2).isLt
  have hi3 : (i 3).val < 224 := (i 3).isLt
  have hN : grid0.N = 128 := N_0
  obtain ⟨t, ht⟩ : ∃ t : Fin cfg0.N, t.val = (i 0).val := ⟨⟨(i 0).val, by show (i 0).val < grid0.N; omega⟩, rfl⟩
  obtain ⟨e0, e1, e2, e3, e4, e5, e6, e7, e8, e9⟩ := idx_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 224 ≤ (i 2).val ∧ (i 2).val < win0_2.index t (2 : Fin 4) * 224 + 224; omega
  | ⟨3, _⟩ => show win0_2.index t (3 : Fin 4) * 224 ≤ (i 3).val ∧ (i 3).val < win0_2.index t (3 : Fin 4) * 224 + 224; omega

/-! ## The whole array, and the run -/

/-- THE RESULT ARRAY after the run is `outer` of the two argument arrays as launched. -/
theorem final (c : Dev nD) :
    (dats m 0 c).arrAt 2 cfg0.N = outer (m ((c : Thread nD τ).loc main_arg0)) (m ((c : Thread nD τ).loc main_arg1)) :=
  (dats m 0 c).arrAt_eq_of_cover 2 (outer (V m c main_arg0) (V m c main_arg1)) (fun t _ => flushed_eq m c t) cover

/-- Every weakly fair execution of the idealized kernel's @main terminates with the result array at `outer` of the
    arguments and the arguments unchanged. -/
theorem run : θ_run defs (onTc (τ := τ) (main (F := F))) ⟨m, fun _ => 0, ρ⟩ fun r => ∀ c : Dev nD,
      r.2.mem ((c : Thread nD τ).loc main_v0) = outer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Product

end
-- ==== Proof.ReferenceProduct.lean ====
/-
  The reference's result is the same function of the two argument arrays.

  The reference repeats `x` along a new channel axis and `kernels` along a new image axis, both to
  128 × 32 × 224 × 224, and multiplies entry by entry: at `(b, c, h, w)` it has `x[b, h, w] · kernels[c, h, w]`.
  The kernel has the two factors the other way round. On the extended reals multiplication is commutative
  with no side condition (infinite factors and zero included), so the two arrays are equal entry by entry,
  and the inputs' finiteness is not used.
-/
import proofs.«102451_j19670950216065_1_alg».proof.Proof.Gen.ReferenceIdeal.Read
import proofs.«102451_j19670950216065_1_alg».proof.Proof.KernelProduct
import Idealize.ShloMosaic.PureOps.Ideal

noncomputable section

namespace Cert.ReferenceIdeal.Product

open Cert.ReferenceIdeal Cert.ReferenceIdeal.Read Idealize.ShloMosaic
open Cert.KernelIdeal.Product (outer imgIdx filtIdx)

/-- Through the reference's two broadcasts of `x`, the result entry `(b, c, h, w)` reads `x` at `(b, h, w)`. -/
theorem img_read (i : S128x32x224x224.Idx) : idx_main_v0 (idx_main_v2 i) = imgIdx i :=
  funext fun a => Fin.ext (by match a with | ⟨0, _⟩ => rfl | ⟨1, _⟩ => rfl | ⟨2, _⟩ => rfl)

/-- Through the reference's two broadcasts of `kernels`, the result entry `(b, c, h, w)` reads it at `(c, h, w)`. -/
theorem filt_read (i : S128x32x224x224.Idx) : idx_main_v1 (idx_main_v3 i) = filtIdx i :=
  funext fun a => Fin.ext (by match a with | ⟨0, _⟩ => rfl | ⟨1, _⟩ => rfl | ⟨2, _⟩ => rfl)

/-- The reference's product array, at the extended reals, is the kernel's: `x[b, h, w] · k[c, h, w] = k[c, h, w] · x[b, h, w]`. -/
theorem result_eq (x : (⟨S128x224x224, .f32⟩ : BufTy).Contents (Elt Ideal)) (k : (⟨S32x224x224, .f32⟩ : BufTy).Contents (Elt Ideal)) :
    val_main_v4 (F := Ideal) x k = outer (F := Ideal) x k := by
  funext i
  rw [val_main_v4_apply, val_main_v2_apply, val_main_v0_apply, val_main_v3_apply, val_main_v1_apply, img_read, filt_read]
  exact mul_comm (x (imgIdx i) : EReal) (k (filtIdx i) : EReal)

end Cert.ReferenceIdeal.Product

end
-- ==== Proof.lean ====
/-
  Every image of `x` against every filter of `kernels`: the certificate.

  Both programs put, at `(b, c, h, w)` of a 128 × 32 × 224 × 224 array, the product of `kernels[c, h, w]` and
  `x[b, h, w]`. The kernel does it one image per grid point with the filter as the left factor; the reference
  repeats both operands to the full shape and multiplies with the image as the left factor. At the extended
  reals the two products are equal by commutativity of multiplication, which needs no finiteness, so the
  precondition is never opened.

  * The word-level kernel and the idealized kernel terminate without a fault and leave their arguments as
    launched: the frame of each.
  * The reference is five host operations; its run, with the statement about the result dropped, is its frame.
  * The idealization rewrote no operation, so `preserves` states nothing.
  * `algebraic`: the kernel's result array is `outer` of the argument arrays (Proof/KernelProduct.lean); the
    reference's result array is that same array (Proof/ReferenceProduct.lean); the two memories agree on the
    arguments.
-/
import proofs.«102451_j19670950216065_1_alg».proof.Defs
import proofs.«102451_j19670950216065_1_alg».proof.Proof.Gen.Kernel
import proofs.«102451_j19670950216065_1_alg».proof.Proof.Gen.Kernel.Frame
import proofs.«102451_j19670950216065_1_alg».proof.Proof.Gen.KernelIdeal
import proofs.«102451_j19670950216065_1_alg».proof.Proof.Gen.KernelIdeal.Frame
import proofs.«102451_j19670950216065_1_alg».proof.Proof.Gen.KernelIdeal.Value
import proofs.«102451_j19670950216065_1_alg».proof.Proof.Gen.ReferenceIdeal
import proofs.«102451_j19670950216065_1_alg».proof.Proof.Gen.ReferenceIdeal.Run
import proofs.«102451_j19670950216065_1_alg».proof.Proof.Gen.ReferenceIdeal.Read
import proofs.«102451_j19670950216065_1_alg».proof.Proof.Gen.Pre_finite_inputs
import proofs.«102451_j19670950216065_1_alg».proof.Proof.KernelProduct
import proofs.«102451_j19670950216065_1_alg».proof.Proof.ReferenceProduct

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run states the result and the unchanged arguments; the frame keeps the latter. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The common result is `outer` of the kernel's arguments: the kernel's run ends there; the reference's run ends at its
    own product array of ITS arguments, which is the same function of them (commutativity), and its arguments are the
    kernel's by agreement. -/
theorem algebraic : Cert.algebraic_KernelIdeal_ReferenceIdeal := by
  intro m ρ m' ρ' _ hagree
  refine ⟨_, Cert.KernelIdeal.Product.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Product.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
